-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S128x4096 .f32 .bf16
  ∧ IdealRules.truncf_extf.Statement Cert.KernelIdeal.S128x4096 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S2048 : Shape := ⟨1, ![2048]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S16384x4096 .f32) (main_arg1 : IVec S2048 32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_c_0 : IVec S_ 32 := constantI S_ 32 0#32
  let main_v4 : IVec S2048 32 := broadcastInDim S2048 ![] bcast_S_S2048 main_c_0
  let main_v5 : IVec S2048 1 := cmpi .sge main_arg1 main_v4
  let main_c_1 : IVec S_ 32 := constantI S_ 32 4096#32
  let main_v6 : IVec S2048 32 := broadcastInDim S2048 ![] bcast_S_S2048 main_c_1
  let main_v7 : IVec S2048 1 := cmpi .slt main_arg1 main_v6
  let main_v8 : IVec S2048 1 := andi main_v5 main_v7
  let main_c_2 : IVec S_ 1 := constantI S_ 1 1#1
  let main_v9 : IVec S_ 1 := (fun x v => Host.reduce IntOp.andi x v reducesTo_S2048_S_d0 h_S_) main_v8 main_c_2
  let main_v10 : IVec S_ 1 := andi main_v3 main_v9
  main_v10
-- ==== Kernel.lean ====
abbrev S16384x4096 : Shape := ⟨2, ![16384, 4096]⟩
abbrev S2048 : Shape := ⟨1, ![2048]⟩
abbrev S_ : Shape := ⟨0, ![]⟩
abbrev S4096x2048 : Shape := ⟨2, ![4096, 2048]⟩
abbrev S1x2048 : Shape := ⟨2, ![1, 2048]⟩
abbrev S16384x2048 : Shape := ⟨2, ![16384, 2048]⟩
abbrev S128x4096 : Shape := ⟨2, ![128, 4096]⟩
abbrev S128x2048 : Shape := ⟨2, ![128, 2048]⟩

abbrev nBuf : Space → Nat
  | .hbm => 16
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S2048, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S2048, .i32⟩
  | .hbm, ⟨6, _⟩ => ⟨S2048, .i32⟩
  | .hbm, ⟨7, _⟩ => ⟨S_, .i32⟩
  | .hbm, ⟨8, _⟩ => ⟨S2048, .i32⟩
  | .hbm, ⟨9, _⟩ => ⟨S2048, .i32⟩
  | .hbm, ⟨10, _⟩ => ⟨S4096x2048, .i32⟩
  | .hbm, ⟨11, _⟩ => ⟨S1x2048, .i32⟩
  | .hbm, ⟨12, _⟩ => ⟨S4096x2048, .i32⟩
  | .hbm, ⟨13, _⟩ => ⟨S4096x2048, .i1⟩
  | .hbm, ⟨14, _⟩ => ⟨S4096x2048, .bf16⟩
  | .hbm, ⟨15, _⟩ => ⟨S16384x2048, .f32⟩
  | .local _ .vmem, ⟨0, _⟩ => ⟨S128x4096, .f32⟩
  | .local _ .vmem, ⟨1, _⟩ => ⟨S128x4096, .f32⟩
  | .local _ .vmem, ⟨2, _⟩ => ⟨S4096x2048, .bf16⟩
  | .local _ .vmem, ⟨3, _⟩ => ⟨S128x2048, .f32⟩
  | .local _ .vmem, ⟨4, _⟩ => ⟨S128x2048, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  inb_S128x4096_S128x4096_0_0 : ∀ a, (![0, 0] : Fin 2 → Nat) a + S128x4096.size a ≤ S128x4096.size a
  h_S128x4096 : 0 < S128x4096.numel
  bitsLt_bf16_f32 : FTy.bits .bf16 < FTy.bits .f32
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S128x2048_S128x2048_0_0 : ∀ a, (![0, 0] : Fin 2 → Nat) a + S128x2048.size a ≤ S128x2048.size a
  h_S128x2048 : 0 < S128x2048.numel
  dot_S128x4096_S4096x2048_S128x2048_1_0_0_1_n_n_wf : DotDims.WF S128x4096 S4096x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S16384x4096.size a
  hwx0_0 : ∀ i : grid0.Coords, EltTy.bits .f32 = 32 ∨ (Rect.block (s := S16384x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x2048.size a ≤ S4096x2048.size a
  hwx0_1 : ∀ i : grid0.Coords, EltTy.bits .bf16 = 32 ∨ (Rect.block (s := S4096x2048) S4096x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S16384x2048.size a
  hwx0_2 : ∀ i : grid0.Coords, EltTy.bits .f32 = 32 ∨ (Rect.block (s := S16384x2048) S128x2048.size (cc0_transform_2 i) (hinb0_2 i)).WholeWords (EltTy.packing .f32)

variable [Facts₀]

def dot_S128x4096_S4096x2048_S128x2048_1_0_0_1_n_n : DotDims S128x4096 S4096x2048 S128x2048 where
  lhsContracting := [1]
  rhsContracting := [0]
  lhsNonContracting := [0]
  rhsNonContracting := [1]
  lhsBatch := []
  rhsBatch := []
  wf := dot_S128x4096_S4096x2048_S128x2048_1_0_0_1_n_n_wf

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4096x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S2048 : Shape := ⟨1, ![2048]⟩
abbrev S_ : Shape := ⟨0, ![]⟩
abbrev S2048x1 : Shape := ⟨2, ![2048, 1]⟩
abbrev S1 : Shape := ⟨1, ![1]⟩
abbrev S1x1 : Shape := ⟨2, ![1, 1]⟩
abbrev S16384x2048 : Shape := ⟨2, ![16384, 2048]⟩

abbrev nBuf : Space → Nat
  | .hbm => 25
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S2048, .i32⟩
  | .hbm, ⟨2, _⟩ => ⟨S_, .i32⟩
  | .hbm, ⟨3, _⟩ => ⟨S2048, .i32⟩
  | .hbm, ⟨4, _⟩ => ⟨S2048, .i1⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S2048x1, .i32⟩
  | .hbm, ⟨10, _⟩ => ⟨S1, .i32⟩
  | .hbm, ⟨11, _⟩ => ⟨S_, .i32⟩
  | .hbm, ⟨12, _⟩ => ⟨S2048x1, .i32⟩
  | .hbm, ⟨13, _⟩ => ⟨S2048x1, .i1⟩
  | .hbm, ⟨14, _⟩ => ⟨S1x1, .i32⟩
  | .hbm, ⟨15, _⟩ => ⟨S2048x1, .i32⟩
  | .hbm, ⟨16, _⟩ => ⟨S2048x1, .i1⟩
  | .hbm, ⟨17, _⟩ => ⟨S2048x1, .i1⟩
  | .hbm, ⟨18, _⟩ => ⟨S_, .i1⟩
  | .hbm, ⟨19, _⟩ => ⟨S2048, .i1⟩
  | .hbm, ⟨20, _⟩ => ⟨S16384x2048, .f32⟩
  | .hbm, ⟨21, _⟩ => ⟨S16384x2048, .i1⟩
  | .hbm, ⟨22, _⟩ => ⟨S_, .f32⟩
  | .hbm, ⟨23, _⟩ => ⟨S16384x2048, .f32⟩
  | .hbm, ⟨24, _⟩ => ⟨S16384x2048, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  reducesTo_S2048x1_S2048_d1 : S2048x1.ReducesTo [1] S2048
  h_S_ : 0 < S_.numel
  bcast_S2048_S16384x2048_1 : S2048.BroadcastsInDim S16384x2048 (![1] : Fin 1 → Fin S16384x2048.rank)
  bcast_S_S16384x2048 : S_.BroadcastsInDim S16384x2048 (![] : Fin 0 → Fin S16384x2048.rank)
  gather_S16384x4096_S2048x1_S16384x2048_0_1_n_n_1_1_163841_wf : GatherDims.WF S16384x4096 S2048x1 S16384x2048 [0] [1] [] [1] [] 1 ![16384, 1]

variable [Facts₀]

def gather_S16384x4096_S2048x1_S16384x2048_0_1_n_n_1_1_163841 : GatherDims S16384x4096 S2048x1 S16384x2048 where
  offsetDims := [0]
  collapsedSliceDims := [1]
  operandBatchingDims := []
  startIndicesBatchingDims := []
  startIndexMap := [1]
  indexVectorDim := 1
  sliceSizes := ![16384, 1]
  wf := gather_S16384x4096_S2048x1_S16384x2048_0_1_n_n_1_1_163841_wf

class Facts : Prop extends Facts₀ where

variable [Facts]
-- ==== Proof.PreDecode.lean ====
import proofs.«408778_j48670569398603_3_alg».proof.Proof.Gen.Pre_finite_inputs
import Idealize.ShloMosaic.Lib.ReduceAll
import Idealize.ShloMosaic.Lib.ValueIdx
import Idealize.ShloMosaic.PureOps.Ideal

/-!
# What the precondition says of the two inputs

The precondition is the conjunction of two `all`s: every entry of `x` has absolute value below `+∞`, and every
entry of the index vector is at least `0` and below `4096` as a signed word. Read over the extended reals the
first says that every entry of `x` is a real number; the second is the range of the columns of `x`.
-/

namespace Cert.Pre_finite_inputs.Decode

open Cert.Pre_finite_inputs Cert.Pre_finite_inputs.Gen Idealize.ShloMosaic

instance : Subsingleton S_.Idx := ⟨fun a b => funext fun d => d.elim0⟩

/-- An extended real whose absolute value is below `+∞` is a real number. -/
theorem real_of_abs_lt_top (y : EReal) (h : Ideal.cmp .olt (max y (-y)) (⊤ : EReal) = 1#1) : ∃ r : ℝ, y = (r : EReal) := by
  induction y using EReal.rec with
  | bot => simp [Ideal.cmp] at h
  | coe r => exact ⟨r, rfl⟩
  | top => simp [Ideal.cmp] at h

/-- The precondition, decoded: every entry of `x` is real, and every index lies in `[0, 4096)`. -/
theorem decode (x : FVec Ideal S16384x4096 .f32) (idx : IVec S2048 32)
    (h : fn (F := Ideal) x idx = fun _ => 1#1) :
    (∀ i, ∃ r : ℝ, x i = (r : EReal))
      ∧ (∀ l, 0 ≤ (idx l).toInt ∧ (idx l).toInt < ((4096 : ℕ) : ℤ)) := by
  have h0 := congrFun h ValueIdx.ix0
  dsimp only [fn] at h0
  obtain ⟨hx, hi⟩ := IntOp.andi_eq_one.1 h0
  refine ⟨fun i => ?_, fun l => ?_⟩
  · have e := Host.reduce_andi_all _ _ _ _ _ hx i
    have htop : Ideal.ofBits .f32 0x7F800000#32 = (⊤ : EReal) := by simp [Ideal.ofBits, Ideal.ieee]
    have e' : Ideal.cmp .olt (max (x i) (-(x i))) (Ideal.ofBits .f32 0x7F800000#32) = 1#1 := e
    rw [htop] at e'
    exact real_of_abs_lt_top _ e'
  · have e := Host.reduce_andi_all _ _ _ _ _ hi l
    obtain ⟨e1, e2⟩ := IntOp.andi_eq_one.1 e
    have e1' : (0#32 : BitVec 32).toInt ≤ (idx l).toInt := IntOp.cmpi_sge.1 e1
    have e2' : (idx l).toInt < (4096#32 : BitVec 32).toInt := IntOp.cmpi_slt.1 e2
    have z0 : (0#32 : BitVec 32).toInt = 0 := by decide
    have z1 : (4096#32 : BitVec 32).toInt = 4096 := by decide
    rw [z0] at e1'
    rw [z1] at e2'
    refine ⟨e1', ?_⟩
    rw [Nat.cast_ofNat]
    exact e2'

end Cert.Pre_finite_inputs.Decode
-- ==== Proof.RefRun.lean ====
import proofs.«408778_j48670569398603_3_alg».proof.Proof.Gen.ReferenceIdeal
import Idealize.ShloMosaic.Lib.StableHlo.Run

/-!
# The reference's run

The reference is `jnp.take(x, idx, axis = 1)`: a negative index is first moved up by the row length `4096`; the
columns are then gathered at the moved indices; and a position whose moved index is still outside `[0, 4095]` is
filled with the not-a-number pattern. Its program is one straight line of host operations (those of `take`, with
the one `select` of `where` in their middle), so every execution ends with the result buffer at the composed
term `taken x idx` of the two argument arrays, and the arguments unchanged.
-/

noncomputable section

namespace Cert.ReferenceIdeal.Taken

open Cert.ReferenceIdeal Cert.ReferenceIdeal.Gen Idealize.ShloMosaic Idealize.ShloMosaic.TcCoe Idealize.SL.Sem
open Idealize.ShloMosaic.StableHlo

variable {F : FTy → Type} [FloatOps F]

/-- The index vector with its negative entries moved up by `4096`. -/
def moved (idx : IVec S2048 32) : IVec S2048 32 :=
  select (cmpi .slt idx (broadcastInDim S2048 ![] bcast_S_S2048 (constantI S_ 32 0#32)))
    (addi idx (broadcastInDim S2048 ![] bcast_S_S2048 (constantI S_ 32 4096#32))) idx

/-- The moved indices as a column of start indices. -/
def starts (idx : IVec S2048 32) : IVec S2048x1 32 :=
  broadcastInDim S2048x1 ![0] bcast_S2048_S2048x1_0 (moved idx)

/-- Per output column, whether its moved index lies in `[0, 4095]`. -/
def inRange (idx : IVec S2048 32) : IVec S2048 1 :=
  Host.reduce IntOp.andi
    (andi (cmpi .sge (starts idx) (broadcastInDim S2048x1 ![] bcast_S_S2048x1 (constantI S_ 32 0#32)))
      (cmpi .sle (starts idx) (broadcastInDim S2048x1 ![0, 1] bcast_S1x1_S2048x1_0_1
        (broadcastInDim S1x1 ![1] bcast_S1_S1x1_1 (constantI S1 32 4095#32)))))
    (constantI S_ 1 1#1) reducesTo_S2048x1_S2048_d1 h_S_

/-- The reference's result as one term of its two arguments. -/
def taken (x : FVec F S16384x4096 .f32) (idx : IVec S2048 32) : FVec F S16384x2048 .f32 :=
  select (broadcastInDim S16384x2048 ![1] bcast_S2048_S16384x2048_1 (inRange idx))
    (Host.gather gather_S16384x4096_S2048x1_S16384x2048_0_1_n_n_1_1_163841 x (starts idx))
    (broadcastInDim S16384x2048 ![] bcast_S_S16384x2048 (constant S_ .f32 0x7FC00000#32))

/-- The program's 23 host operations in order: those of `take`, the `select` of `where` seventh. -/
abbrev ops : List (HloOp τ sig (Elt F)) :=
  [ TRef.nullary main_call0.c (constantI S_ 32 0#32),
    TRef.unary main_call0.c main_call0.v0 (broadcastInDim S2048 ![] bcast_S_S2048),
    TRef.binary (.of main_arg1) main_call0.v0 main_call0.v1 (cmpi .slt),
    TRef.nullary main_call0.c_0 (constantI S_ 32 4096#32),
    TRef.unary main_call0.c_0 main_call0.v2 (broadcastInDim S2048 ![] bcast_S_S2048),
    TRef.binary (.of main_arg1) main_call0.v2 main_call0.v3 addi,
    TRef.ternary main_call0.v1 main_call0.v3 (.of main_arg1) main_call0.call0.v0 select,
    TRef.unary main_call0.call0.v0 main_call0.v5 (broadcastInDim S2048x1 ![0] bcast_S2048_S2048x1_0),
    TRef.nullary main_call0.c_1 (constantI S1 32 4095#32),
    TRef.nullary main_call0.c_2 (constantI S_ 32 0#32),
    TRef.unary main_call0.c_2 main_call0.v6 (broadcastInDim S2048x1 ![] bcast_S_S2048x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S2048x1 ![0, 1] bcast_S1x1_S2048x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S2048x1_S2048_d1 h_S_),
    TRef.binary (.of main_arg0) main_call0.v5 main_call0.v13 (fun x i => Host.gather gather_S16384x4096_S2048x1_S16384x2048_0_1_n_n_1_1_163841 x i),
    TRef.unary main_call0.v12 main_call0.v14 (broadcastInDim S16384x2048 ![1] bcast_S2048_S16384x2048_1),
    TRef.nullary main_call0.cst (constant S_ .f32 0x7FC00000#32),
    TRef.unary main_call0.cst main_call0.v15 (broadcastInDim S16384x2048 ![] bcast_S_S16384x2048),
    TRef.ternary main_call0.v14 main_call0.v13 main_call0.v15 main_call0.v16 select ]

set_option maxRecDepth 1024 in
/-- The program is that straight line: the two functions' bodies unfolded at their calls, sequencing
    reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

attribute [local irreducible] Host.reduce Host.gather in
set_option maxRecDepth 8192 in
/-- The fold of the operations at the result buffer is `taken` of the two argument buffers. -/
theorem out_eq (V : Valuation τ sig (Elt F)) :
    after ops V (main_v0 : DevRef τ sig) = taken (V (main_arg0 : DevRef τ sig)) (V (main_arg1 : DevRef τ sig)) := by
  after_results
  rfl

theorem arg0_eq (V : Valuation τ sig (Elt F)) :
    after ops V (main_arg0 : DevRef τ sig) = V (main_arg0 : DevRef τ sig) := by
  after_results

theorem arg1_eq (V : Valuation τ sig (Elt F)) :
    after ops V (main_arg1 : DevRef τ sig) = V (main_arg1 : DevRef τ sig) := by
  after_results

/-- From any memory with zero counters, every weakly fair execution of the reference terminates with the result
    at `taken` of the launch contents of the two arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0)
          = taken (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (out_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.Taken

end
-- ==== Proof.LibSegmentSum.lean ====
import Mathlib.Data.EReal.Inv
import Mathlib.Algebra.BigOperators.Fin
import Mathlib.Algebra.BigOperators.Group.Finset.Basic
import Mathlib.Algebra.BigOperators.Group.Finset.Piecewise
import Mathlib.Data.Fintype.BigOperators
import Mathlib.Logic.Equiv.Fin.Basic

/-!
# Segment sums and gathers written as one-hot matrix products

A gather `h[src e]` can be computed as the product of a one-hot row `(src e = k)_k` with `h`,
and a scatter-add (segment sum) `∑_{e : dst e = n} m e` as the product of the transposed
one-hot matrix `(n = dst e)_e` with `m`; either product can be accumulated block by block.
The lemmas of this file say that these products are the plain gather and the plain segment sum,
over the extended reals (where `0 * x = 0` for every `x`, infinite ones included) and with
node identifiers read as 32-bit two's complement words.
-/

namespace Cert.LibSegmentSum

open Finset

/-! ## Sums read block by block -/

/-- The position `a * B + b` of the `b`-th entry of the `a`-th block lies below `A * B`. -/
theorem blk_lt {A B : ℕ} (a : Fin A) (b : Fin B) : a.val * B + b.val < A * B := by
  calc a.val * B + b.val < a.val * B + B := Nat.add_lt_add_left b.isLt _
    _ = (a.val + 1) * B := (Nat.succ_mul _ _).symm
    _ ≤ A * B := Nat.mul_le_mul_right _ a.isLt

/-- A sum over `A * B` positions is the sum over the `A` blocks of the sums over the `B`
positions `a * B + b` of each block. -/
theorem sum_blocks {M : Type*} [AddCommMonoid M] (A B : ℕ) (f : Fin (A * B) → M) :
    ∑ a : Fin A, ∑ b : Fin B, f ⟨a.val * B + b.val, blk_lt a b⟩ = ∑ n : Fin (A * B), f n := by
  calc ∑ a : Fin A, ∑ b : Fin B, f ⟨a.val * B + b.val, blk_lt a b⟩
      = ∑ x : Fin A × Fin B, f ⟨x.1.val * B + x.2.val, blk_lt x.1 x.2⟩ :=
        (Fintype.sum_prod_type' (fun a b => f ⟨a.val * B + b.val, blk_lt a b⟩)).symm
    _ = ∑ x : Fin A × Fin B, f (finProdFinEquiv x) := by
        refine Fintype.sum_congr _ _ fun x => congrArg f (Fin.ext ?_)
        show x.1.val * B + x.2.val = x.2.val + B * x.1.val
        rw [Nat.mul_comm, Nat.add_comm]
    _ = ∑ n : Fin (A * B), f n := Equiv.sum_comp finProdFinEquiv f

/-- An accumulator that starts at `0` and adds `g a` at step `a` holds `∑ a < A, g a`
after `A` steps. -/
theorem acc_eq_sum {M : Type*} [AddCommMonoid M] (A : ℕ) (g : ℕ → M) (acc : ℕ → M)
    (h0 : acc 0 = 0) (hs : ∀ a, a < A → acc (a + 1) = acc a + g a) :
    acc A = ∑ a : Fin A, g a.val := by
  induction A with
  | zero => simpa using h0
  | succ A ih =>
    rw [hs A (Nat.lt_succ_self A), ih (fun a ha => hs a (Nat.lt_succ_of_lt ha)),
      Fin.sum_univ_castSucc]
    rfl

/-- The accumulator recursion of a blocked sum: starting at `0` and adding at step `a` the
partial sum `0 + ∑ b, f (a * B + b)` of block `a` gives, after `A` steps, the whole sum. -/
theorem acc_blocks {M : Type*} [AddCommMonoid M] (A B : ℕ) (f : Fin (A * B) → M) (acc : ℕ → M)
    (h0 : acc 0 = 0)
    (hs : ∀ a (ha : a < A), acc (a + 1)
      = acc a + (0 + ∑ b : Fin B, f ⟨a * B + b.val, blk_lt ⟨a, ha⟩ b⟩)) :
    acc A = ∑ n : Fin (A * B), f n := by
  have h := acc_eq_sum A
    (fun a => if ha : a < A then (0 + ∑ b : Fin B, f ⟨a * B + b.val, blk_lt ⟨a, ha⟩ b⟩) else 0)
    acc h0 (fun a ha => by rw [hs a ha, dif_pos ha])
  rw [h, ← sum_blocks]
  refine Fintype.sum_congr _ _ fun a => ?_
  rw [dif_pos a.isLt, zero_add]

/-- `sum_blocks` at `125` blocks of `800`: a sum over `100000` positions. -/
theorem sum_blocks_125_800 {M : Type*} [AddCommMonoid M] (f : Fin 100000 → M) :
    ∑ a : Fin 125, ∑ b : Fin 800, f ⟨a.val * 800 + b.val, blk_lt (A := 125) a b⟩
      = ∑ n : Fin 100000, f n :=
  sum_blocks 125 800 f

/-- `sum_blocks` at `208` blocks of `8192`: a sum over `1703936` positions. -/
theorem sum_blocks_208_8192 {M : Type*} [AddCommMonoid M] (f : Fin 1703936 → M) :
    ∑ a : Fin 208, ∑ b : Fin 8192, f ⟨a.val * 8192 + b.val, blk_lt (A := 208) a b⟩
      = ∑ n : Fin 1703936, f n :=
  sum_blocks 208 8192 f

/-- `acc_blocks` at `125` blocks of `800`. -/
theorem acc_blocks_125_800 {M : Type*} [AddCommMonoid M] (f : Fin 100000 → M) (acc : ℕ → M)
    (h0 : acc 0 = 0)
    (hs : ∀ a (ha : a < 125), acc (a + 1)
      = acc a + (0 + ∑ b : Fin 800, f ⟨a * 800 + b.val, blk_lt (A := 125) ⟨a, ha⟩ b⟩)) :
    acc 125 = ∑ n : Fin 100000, f n :=
  acc_blocks 125 800 f acc h0 hs

/-- `acc_blocks` at `208` blocks of `8192`. -/
theorem acc_blocks_208_8192 {M : Type*} [AddCommMonoid M] (f : Fin 1703936 → M) (acc : ℕ → M)
    (h0 : acc 0 = 0)
    (hs : ∀ a (ha : a < 208), acc (a + 1)
      = acc a + (0 + ∑ b : Fin 8192, f ⟨a * 8192 + b.val, blk_lt (A := 208) ⟨a, ha⟩ b⟩)) :
    acc 208 = ∑ n : Fin 1703936, f n :=
  acc_blocks 208 8192 f acc h0 hs

/-! ## Node identifiers as 32-bit words -/

/-- A natural number below `2^31`, written as a 32-bit word, reads back as itself in two's
complement. -/
theorem toInt_ofNat_small (n : ℕ) (hn : n < 2 ^ 31) : (BitVec.ofNat 32 n).toInt = (n : ℤ) := by
  have hm : n % 2 ^ 32 = n := Nat.mod_eq_of_lt (by omega)
  rw [BitVec.toInt_eq_toNat_cond, BitVec.toNat_ofNat, hm]
  split <;> omega

/-- A word whose two's complement value lies in `[0, N)` has a natural value below `N`. -/
theorem toNat_lt_of_range {s : BitVec 32} {N : ℕ} (hs : 0 ≤ s.toInt ∧ s.toInt < (N : ℤ)) :
    s.toInt.toNat < N := by
  obtain ⟨h0, h1⟩ := hs
  omega

/-- For `n < 2^31`, a word equals the word of `n` exactly when its two's complement value
is `n`. -/
theorem eq_ofNat_iff (s : BitVec 32) (n : ℕ) (hn : n < 2 ^ 31) :
    s = BitVec.ofNat 32 n ↔ s.toInt = (n : ℤ) := by
  rw [← BitVec.toInt_inj, toInt_ofNat_small n hn]

/-- The same with the two sides of the equation exchanged. -/
theorem ofNat_eq_iff (s : BitVec 32) (n : ℕ) (hn : n < 2 ^ 31) :
    BitVec.ofNat 32 n = s ↔ s.toInt = (n : ℤ) := by
  rw [eq_comm]; exact eq_ofNat_iff s n hn

/-! ## One-hot selection -/

/-- The product of the one-hot row of an in-range identifier `s` with a column `h` is the
entry `h s`: a gather. -/
theorem onehot_select (N : ℕ) (hN : N ≤ 2 ^ 31) (s : BitVec 32) (h : Fin N → EReal)
    (hs : 0 ≤ s.toInt ∧ s.toInt < (N : ℤ)) :
    ∑ n : Fin N, (if s = BitVec.ofNat 32 n.val then (1 : EReal) else 0) * h n
      = h ⟨s.toInt.toNat, toNat_lt_of_range hs⟩ := by
  have key : ∀ n : Fin N, s = BitVec.ofNat 32 n.val ↔ n = ⟨s.toInt.toNat, toNat_lt_of_range hs⟩ := by
    intro n
    have hn := n.isLt
    rw [eq_ofNat_iff s n.val (by omega), Fin.ext_iff]
    show s.toInt = (n.val : ℤ) ↔ n.val = s.toInt.toNat
    obtain ⟨h0, h1⟩ := hs
    omega
  simp only [key, ite_mul, one_mul, zero_mul]
  rw [Finset.sum_ite_eq']
  exact if_pos (mem_univ _)

/-- The one-hot row of an identifier that is negative or not below `N` is zero, and so is its
product with any column. -/
theorem onehot_select_out (N : ℕ) (hN : N ≤ 2 ^ 31) (s : BitVec 32) (h : Fin N → EReal)
    (hs : s.toInt < 0 ∨ (N : ℤ) ≤ s.toInt) :
    ∑ n : Fin N, (if s = BitVec.ofNat 32 n.val then (1 : EReal) else 0) * h n = 0 := by
  refine Finset.sum_eq_zero fun n _ => ?_
  have hn := n.isLt
  have hne : ¬ s = BitVec.ofNat 32 n.val := by
    rw [eq_ofNat_iff s n.val (by omega)]
    omega
  rw [if_neg hne, zero_mul]

/-! ## A message-passing layer with zero padding -/

/-- Gather, weight and scatter-add as two one-hot products over a zero-padded edge list:
for `E` edges `(src e, dst e)` with weights `nrm e`, every `src e` in `[0, N)`, extended by
`P` padding edges of weight `0` (whatever their end points), the product of the transposed
one-hot matrix of the destinations with the weighted gathered rows is the segment sum
`∑_{e : dst e = n} nrm e * h (src e)`.  Nothing is asked of `dst`: a destination that is
negative or not below `N` matches no `n` on either side. -/
theorem layer_padded (N E P : ℕ) (hN : N ≤ 2 ^ 31)
    (src dst : Fin E → BitVec 32) (nrm : Fin E → EReal) (h : Fin N → EReal)
    (hsrc : ∀ e, 0 ≤ (src e).toInt ∧ (src e).toInt < (N : ℤ))
    (srcP dstP : Fin (E + P) → BitVec 32) (nrmP : Fin (E + P) → EReal)
    (hsrcP : ∀ (e : Fin (E + P)) (he : e.val < E), srcP e = src ⟨e.val, he⟩)
    (hdstP : ∀ (e : Fin (E + P)) (he : e.val < E), dstP e = dst ⟨e.val, he⟩)
    (hnrmP : ∀ (e : Fin (E + P)) (he : e.val < E), nrmP e = nrm ⟨e.val, he⟩)
    (hnrm0 : ∀ e : Fin (E + P), E ≤ e.val → nrmP e = 0)
    (n : Fin N) :
    ∑ e : Fin (E + P), (if BitVec.ofNat 32 n.val = dstP e then (1 : EReal) else 0)
        * ((∑ k : Fin N, (if srcP e = BitVec.ofNat 32 k.val then (1 : EReal) else 0) * h k)
            * nrmP e)
      = ∑ e ∈ Finset.univ.filter (fun e : Fin E => (dst e).toInt = (n.val : ℤ)),
          nrm e * h ⟨(src e).toInt.toNat, toNat_lt_of_range (hsrc e)⟩ := by
  have hn : n.val < 2 ^ 31 := lt_of_lt_of_le n.isLt hN
  rw [Fin.sum_univ_add]
  -- the padding edges carry weight zero
  have hpad : ∑ i : Fin P, (if BitVec.ofNat 32 n.val = dstP (Fin.natAdd E i) then (1 : EReal) else 0)
        * ((∑ k : Fin N, (if srcP (Fin.natAdd E i) = BitVec.ofNat 32 k.val then (1 : EReal) else 0)
              * h k) * nrmP (Fin.natAdd E i)) = 0 :=
    Finset.sum_eq_zero fun i _ => by
      rw [hnrm0 (Fin.natAdd E i) (Nat.le_add_right E i.val), mul_zero, mul_zero]
  rw [hpad, add_zero, Finset.sum_filter]
  refine Fintype.sum_congr _ _ fun e => ?_
  have he : (Fin.castAdd P e).val < E := e.isLt
  rw [hsrcP _ he, hdstP _ he, hnrmP _ he]
  show (if BitVec.ofNat 32 n.val = dst e then (1 : EReal) else 0)
      * ((∑ k : Fin N, (if src e = BitVec.ofNat 32 k.val then (1 : EReal) else 0) * h k) * nrm e)
    = if (dst e).toInt = (n.val : ℤ) then
        nrm e * h ⟨(src e).toInt.toNat, toNat_lt_of_range (hsrc e)⟩ else 0
  rw [onehot_select N hN (src e) h (hsrc e)]
  by_cases hd : (dst e).toInt = (n.val : ℤ)
  · rw [if_pos hd, if_pos ((ofNat_eq_iff (dst e) n.val hn).2 hd), one_mul, mul_comm]
  · rw [if_neg hd, if_neg (fun h' => hd ((ofNat_eq_iff (dst e) n.val hn).1 h')), zero_mul]

/-- `layer_padded` at `100000` nodes and `1700000` edges padded to `1703936`. -/
theorem layer_padded_100000
    (src dst : Fin 1700000 → BitVec 32) (nrm : Fin 1700000 → EReal) (h : Fin 100000 → EReal)
    (hsrc : ∀ e, 0 ≤ (src e).toInt ∧ (src e).toInt < ((100000 : ℕ) : ℤ))
    (srcP dstP : Fin 1703936 → BitVec 32) (nrmP : Fin 1703936 → EReal)
    (hsrcP : ∀ (e : Fin 1703936) (he : e.val < 1700000), srcP e = src ⟨e.val, he⟩)
    (hdstP : ∀ (e : Fin 1703936) (he : e.val < 1700000), dstP e = dst ⟨e.val, he⟩)
    (hnrmP : ∀ (e : Fin 1703936) (he : e.val < 1700000), nrmP e = nrm ⟨e.val, he⟩)
    (hnrm0 : ∀ e : Fin 1703936, 1700000 ≤ e.val → nrmP e = 0)
    (n : Fin 100000) :
    ∑ e : Fin 1703936, (if BitVec.ofNat 32 n.val = dstP e then (1 : EReal) else 0)
        * ((∑ k : Fin 100000, (if srcP e = BitVec.ofNat 32 k.val then (1 : EReal) else 0) * h k)
            * nrmP e)
      = ∑ e ∈ Finset.univ.filter (fun e : Fin 1700000 => (dst e).toInt = (n.val : ℤ)),
          nrm e * h ⟨(src e).toInt.toNat, toNat_lt_of_range (hsrc e)⟩ :=
  layer_padded 100000 1700000 3936 (by norm_num) src dst nrm h hsrc srcP dstP nrmP
    hsrcP hdstP hnrmP hnrm0 n

end Cert.LibSegmentSum
-- ==== Proof.Selection.lean ====
import proofs.«408778_j48670569398603_3_alg».proof.Proof.LibSegmentSum

/-!
# A row split into three pieces, multiplied with a one-hot column

For a row `a` of real numbers the pieces `a`, `a - a` and `(a - a) - (a - a)` are `a`, `0`, `0`, so the three
products of the pieces with any column add up to the product of `a` with the column. With a one-hot column, the
indicator of the position a word `s` in `[0, 4096)` names, that product is the entry `a s`: a column gather.
Finiteness of the row is what makes `a - a = 0`: on the extended reals `⊤ - ⊤` is `⊥`, not `0`.
-/

namespace Cert.Selection

open Finset

/-- A real number minus itself is zero, as an extended real. -/
theorem coe_sub_self (r : ℝ) : ((r : EReal) - (r : EReal)) = 0 := by
  rw [← EReal.coe_sub, sub_self, EReal.coe_zero]

/-- The three products of the pieces `a`, `a - a`, `(a - a) - (a - a)` of a real row with a column `e` add up to
the product of `a` with `e`. -/
theorem split_row {K : ℕ} (a e : Fin K → EReal) (ha : ∀ k, ∃ r : ℝ, a k = (r : EReal)) :
    (∑ k, a k * e k) + (∑ k, (a k - a k) * e k) + (∑ k, ((a k - a k) - (a k - a k)) * e k)
      = ∑ k, a k * e k := by
  have h0 : ∀ k, a k - a k = 0 := fun k => by
    obtain ⟨r, hr⟩ := ha k
    rw [hr]
    exact coe_sub_self r
  have z : (0 : EReal) - 0 = 0 := by simp
  simp only [h0, z, zero_mul, Finset.sum_const_zero, add_zero]

/-- The product of a row with the one-hot column of an in-range word `s` is the row's entry at `s`. -/
theorem onehot_col (s : BitVec 32) (a : Fin 4096 → EReal)
    (hs : 0 ≤ s.toInt ∧ s.toInt < ((4096 : ℕ) : ℤ)) :
    ∑ k : Fin 4096, a k * (if s = BitVec.ofNat 32 k.val then (1 : EReal) else 0)
      = a ⟨s.toInt.toNat, LibSegmentSum.toNat_lt_of_range hs⟩ := by
  rw [← LibSegmentSum.onehot_select 4096 (by norm_num) s a hs]
  exact Finset.sum_congr rfl fun k _ => mul_comm _ _

/-- The column of a row of length `4096` that a word names: its signed value, clamped into `[0, 4095]`. -/
def colOf (s : BitVec 32) : Fin 4096 := ⟨min s.toInt.toNat 4095, by omega⟩

/-- For a word in `[0, 4096)` the clamp changes nothing. -/
theorem colOf_eq (s : BitVec 32) (hs : 0 ≤ s.toInt ∧ s.toInt < ((4096 : ℕ) : ℤ)) :
    colOf s = ⟨s.toInt.toNat, LibSegmentSum.toNat_lt_of_range hs⟩ := by
  refine Fin.ext ?_
  have h := LibSegmentSum.toNat_lt_of_range hs
  show min s.toInt.toNat 4095 = s.toInt.toNat
  omega

/-- The split row against the one-hot column of an in-range word: the entry at the column the word names. -/
theorem split_onehot (s : BitVec 32) (a : Fin 4096 → EReal) (ha : ∀ k, ∃ r : ℝ, a k = (r : EReal))
    (hs : 0 ≤ s.toInt ∧ s.toInt < ((4096 : ℕ) : ℤ)) (e : Fin 4096 → EReal)
    (he : ∀ k, e k = if s = BitVec.ofNat 32 k.val then (1 : EReal) else 0) :
    (∑ k, a k * e k) + (∑ k, (a k - a k) * e k) + (∑ k, ((a k - a k) - (a k - a k)) * e k)
      = a (colOf s) := by
  rw [split_row a e ha, colOf_eq s hs]
  simp only [he]
  exact onehot_col s a hs

end Cert.Selection
-- ==== Proof.Spec.lean ====
import proofs.«408778_j48670569398603_3_alg».proof.Proof.Selection
import Idealize.ShloMosaic.Lib.ValueIdx

/-!
# The result both programs compute

`out[b, l] = x[b, idx[l]]`: a gather of the columns of `x` that the index vector names, each index read as a
signed word and clamped into `[0, 4095]` (a clamp that changes nothing for an index in range).
-/

namespace Cert.Spec

open Idealize.ShloMosaic Idealize.ShloMosaic.ValueIdx

/-- The `16384 × 2048` array of the columns of `x` named by `idx`. -/
def gatherCols {α : Type} (x : (⟨2, ![16384, 4096]⟩ : Shape).Idx → α) (idx : (⟨1, ![2048]⟩ : Shape).Idx → BitVec 32) :
    (⟨2, ![16384, 2048]⟩ : Shape).Idx → α :=
  fun i => x (ix2 (i 0) (Selection.colOf (idx (ix1 (i 1)))))

/-- At `(b, l)`: row `b`, the column the `l`-th index names. -/
theorem gatherCols_at {α : Type} (x : (⟨2, ![16384, 4096]⟩ : Shape).Idx → α)
    (idx : (⟨1, ![2048]⟩ : Shape).Idx → BitVec 32) (b : Fin 16384) (l : Fin 2048) :
    gatherCols x idx (ix2 b l) = x (ix2 b (Selection.colOf (idx (ix1 l)))) := rfl

end Cert.Spec
-- ==== Proof.RefValue.lean ====
import proofs.«408778_j48670569398603_3_alg».proof.Proof.RefRun
import proofs.«408778_j48670569398603_3_alg».proof.Proof.Spec
import Idealize.ShloMosaic.Lib.ReduceAll
import Idealize.ShloMosaic.Lib.ValueIdx
import Idealize.ShloMosaic.Lib.StableHlo.Predicate

/-!
# The reference at one output position

When every index lies in `[0, 4096)` nothing is moved (no index is negative), the range test passes in every
column, so nothing is filled, and the gather's clamp of its start index into `[0, 4095]` changes nothing:
`taken x idx` at `(b, l)` is `x` at row `b`, column `idx l`.
-/

noncomputable section

namespace Cert.ReferenceIdeal.Taken

open Cert.ReferenceIdeal Cert.ReferenceIdeal.Gen Idealize.ShloMosaic Idealize.ShloMosaic.ValueIdx
open Idealize.ShloMosaic.StableHlo.Predicate (ixP)

/-! ## A reduction by `and` over ones -/

/-- A left fold by `and` from `1` over bits that are all `1` is `1`. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 (f a) = 1#1 := by rw [h a (List.mem_cons_self ..)]; decide
    rw [List.foldl_cons, e]
    exact foldl_andi_one f l fun n hn => h n (List.mem_cons_of_mem _ hn)

/-- A host reduction by `and`, started at `1`, of an array of ones is `1` everywhere. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ fun n _ => hx n

/-! ## The column gather at one position -/

/-- Position `(b, l)` of the gather reads row `b` of the operand at the column the `l`-th start index names,
read as a signed word and clamped into `[0, 4095]`. -/
theorem gather_col {α : Type} (x : S16384x4096.Idx → α) (st : IVec S2048x1 32) (b : Fin 16384) (l : Fin 2048) :
    Host.gather gather_S16384x4096_S2048x1_S16384x2048_0_1_n_n_1_1_163841 x st (ix2 b l)
      = x (ix2 b (Selection.colOf (st (ixP l)))) := by
  unfold Host.gather
  congr 1
  funext a
  refine Fin.ext ?_
  match a with
  | ⟨0, _⟩ =>
    show gather_S16384x4096_S2048x1_S16384x2048_0_1_n_n_1_1_163841.start (ix2 b l) st (0 : Fin S16384x4096.rank)
        + gather_S16384x4096_S2048x1_S16384x2048_0_1_n_n_1_1_163841.batchCoord (ix2 b l) (0 : Fin S16384x4096.rank)
        + gather_S16384x4096_S2048x1_S16384x2048_0_1_n_n_1_1_163841.offCoord (ix2 b l) (0 : Fin S16384x4096.rank) = b.val
    rw [GatherDims.batchCoord_eq_zero _ _ _ (by decide)]
    unfold GatherDims.start
    rw [dif_neg (show ¬(0 : Fin S16384x4096.rank) ∈ gather_S16384x4096_S2048x1_S16384x2048_0_1_n_n_1_1_163841.startIndexMap by decide)]
    unfold GatherDims.offCoord
    rw [dif_pos (show (0 : Fin S16384x4096.rank) ∈ gather_S16384x4096_S2048x1_S16384x2048_0_1_n_n_1_1_163841.sKept by decide)]
    simp only [Nat.zero_add, Nat.add_zero]
    rfl
  | ⟨1, _⟩ =>
    show gather_S16384x4096_S2048x1_S16384x2048_0_1_n_n_1_1_163841.start (ix2 b l) st (1 : Fin S16384x4096.rank)
        + gather_S16384x4096_S2048x1_S16384x2048_0_1_n_n_1_1_163841.batchCoord (ix2 b l) (1 : Fin S16384x4096.rank)
        + gather_S16384x4096_S2048x1_S16384x2048_0_1_n_n_1_1_163841.offCoord (ix2 b l) (1 : Fin S16384x4096.rank) = min (st (ixP l)).toInt.toNat 4095
    rw [GatherDims.batchCoord_eq_zero _ _ _ (by decide), GatherDims.offCoord_eq_zero _ _ _ (by decide)]
    simp only [Nat.add_zero]
    unfold GatherDims.start
    rw [dif_pos (show (1 : Fin S16384x4096.rank) ∈ gather_S16384x4096_S2048x1_S16384x2048_0_1_n_n_1_1_163841.startIndexMap by decide)]
    have hsi : gather_S16384x4096_S2048x1_S16384x2048_0_1_n_n_1_1_163841.siIdx (ix2 b l)
        ⟨List.idxOf (1 : Fin S16384x4096.rank) gather_S16384x4096_S2048x1_S16384x2048_0_1_n_n_1_1_163841.startIndexMap,
          List.idxOf_lt_length_iff.2 (by decide)⟩ = ixP l := by
      funext c
      refine Fin.ext ?_
      match c with
      | ⟨0, _⟩ => rfl
      | ⟨1, _⟩ => rfl
    rw [hsi]
    rfl

/-! ## Under the index range -/

variable (idx : IVec S2048 32) (hs : ∀ l, 0 ≤ (idx l).toInt ∧ (idx l).toInt < ((4096 : ℕ) : ℤ))
include hs

/-- No index is negative, so none is moved. -/
theorem moved_eq (j : S2048.Idx) : moved idx j = idx j := by
  have hn : ¬IntOp.cmpi .slt (idx j) (0#32) = 1#1 := fun h => by
    have h' : (idx j).toInt < (0#32 : BitVec 32).toInt := IntOp.cmpi_slt.1 h
    have z0 : (0#32 : BitVec 32).toInt = 0 := by decide
    have := (hs j).1
    omega
  show Scalar.select (IntOp.cmpi .slt (idx j) (0#32)) _ (idx j) = idx j
  rw [eq_zero_of_ne_one hn, select_zero]

/-- Every start index lies in `[0, 4096)`. -/
theorem starts_range (i : S2048x1.Idx) : 0 ≤ (starts idx i).toInt ∧ (starts idx i).toInt < ((4096 : ℕ) : ℤ) := by
  have e : starts idx i = idx _ := moved_eq idx hs _
  rw [e]
  exact hs _

/-- The `l`-th start index is the `l`-th index. -/
theorem starts_at (l : Fin 2048) : starts idx (ixP l) = idx (ix1 l) :=
  (moved_eq idx hs _).trans (congrArg idx (funext fun a => Fin.ext (by
    match a with
    | ⟨0, _⟩ => rfl)))

/-- The range test passes in every column. -/
theorem inRange_one (j : S2048.Idx) : inRange idx j = 1#1 := by
  unfold inRange
  refine reduce_andi_one _ _ _ _ _ rfl fun i => ?_
  obtain ⟨h0, h1⟩ := starts_range idx hs i
  have z0 : (0#32 : BitVec 32).toInt = 0 := by decide
  have z1 : (4095#32 : BitVec 32).toInt = 4095 := by decide
  have a : IntOp.cmpi .sge (starts idx i) (0#32) = 1#1 := IntOp.cmpi_sge.2 (by rw [z0]; exact h0)
  have b : IntOp.cmpi .sle (starts idx i) (4095#32) = 1#1 := IntOp.cmpi_sle.2 (by
    rw [z1]; rw [Nat.cast_ofNat] at h1; omega)
  exact IntOp.andi_eq_one.2 ⟨a, b⟩

/-- THE REFERENCE AT `(b, l)`: row `b` of `x` at the column the `l`-th index names. -/
theorem taken_at {α : Type} (x : S16384x4096.Idx → α) (fill : S16384x2048.Idx → α) (b : Fin 16384) (l : Fin 2048) :
    select (broadcastInDim S16384x2048 ![1] Facts₀.bcast_S2048_S16384x2048_1 (inRange idx))
        (Host.gather gather_S16384x4096_S2048x1_S16384x2048_0_1_n_n_1_1_163841 x (starts idx)) fill (ix2 b l)
      = x (ix2 b (Selection.colOf (idx (ix1 l)))) := by
  have hc : broadcastInDim S16384x2048 ![1] Facts₀.bcast_S2048_S16384x2048_1 (inRange idx) (ix2 b l) = 1#1 :=
    inRange_one idx hs _
  rw [select_apply, hc, select_one, gather_col, starts_at idx hs]

/-- So the reference's term is the gather of the named columns. -/
theorem taken_eq (x : FVec Ideal S16384x4096 .f32) : taken (F := Ideal) x idx = Spec.gatherCols x idx := by
  funext i
  obtain ⟨b, l, rfl⟩ : ∃ (b : Fin 16384) (l : Fin 2048), i = ix2 b l := ⟨i 0, i 1, eq_ix2 i⟩
  unfold taken
  exact taken_at idx hs x _ b l

end Cert.ReferenceIdeal.Taken

end
-- ==== Proof.KernelDot.lean ====
import proofs.«408778_j48670569398603_3_alg».proof.Proof.Gen.KernelIdeal.Skeleton
import Idealize.ShloMosaic.Lib.ValueIdx
import Idealize.ShloMosaic.Lib.Pipeline.Value
import Idealize.ShloMosaic.PureOps.Ideal.Laws

/-!
# The kernel body at one output position

The body multiplies three pieces of its `128 × 4096` block of `x` — the block, the block minus itself, and that
difference minus itself — with the whole `4096 × 2048` table and adds the three products. Read over the extended
reals, where a change of float format is the identity, its entry `(p, q)` is the sum of the three row-by-column
sums over the `4096` contracted positions.
-/

noncomputable section

namespace Cert.KernelIdeal.Body

open Cert.KernelIdeal Cert.KernelIdeal.Gen Idealize.ShloMosaic Idealize.ShloMosaic.ValueIdx

/-- The output row is the left operand's row. -/
theorem lhs_row (i : S128x2048.Idx) (q : dot_S128x4096_S4096x2048_S128x2048_1_0_0_1_n_n.contr.Idx) :
    (dot_S128x4096_S4096x2048_S128x2048_1_0_0_1_n_n.lhsIdx i q 0).val = (i 0).val := by
  unfold DotDims.lhsIdx
  rw [dif_neg (show ¬(0 : Fin S128x4096.rank) ∈ dot_S128x4096_S4096x2048_S128x2048_1_0_0_1_n_n.lhsBatch by decide),
    dif_pos (show (0 : Fin S128x4096.rank) ∈ dot_S128x4096_S4096x2048_S128x2048_1_0_0_1_n_n.lhsNonContracting by decide)]
  rfl

/-- The left operand's column is the contracted position. -/
theorem lhs_col (i : S128x2048.Idx) (q : dot_S128x4096_S4096x2048_S128x2048_1_0_0_1_n_n.contr.Idx) :
    (dot_S128x4096_S4096x2048_S128x2048_1_0_0_1_n_n.lhsIdx i q 1).val = (q ⟨0, by decide⟩).val :=
  dot_S128x4096_S4096x2048_S128x2048_1_0_0_1_n_n.lhsIdx_val_of_single rfl i q

/-- The right operand's row is the contracted position. -/
theorem rhs_row (i : S128x2048.Idx) (q : dot_S128x4096_S4096x2048_S128x2048_1_0_0_1_n_n.contr.Idx) :
    (dot_S128x4096_S4096x2048_S128x2048_1_0_0_1_n_n.rhsIdx i q 0).val = (q ⟨0, by decide⟩).val :=
  dot_S128x4096_S4096x2048_S128x2048_1_0_0_1_n_n.rhsIdx_val_of_single rfl i q

/-- The output column is the right operand's column. -/
theorem rhs_col (i : S128x2048.Idx) (q : dot_S128x4096_S4096x2048_S128x2048_1_0_0_1_n_n.contr.Idx) :
    (dot_S128x4096_S4096x2048_S128x2048_1_0_0_1_n_n.rhsIdx i q 1).val = (i 1).val := by
  unfold DotDims.rhsIdx
  rw [dif_neg (show ¬(1 : Fin S4096x2048.rank) ∈ dot_S128x4096_S4096x2048_S128x2048_1_0_0_1_n_n.rhsBatch by decide),
    dif_pos (show (1 : Fin S4096x2048.rank) ∈ dot_S128x4096_S4096x2048_S128x2048_1_0_0_1_n_n.rhsNonContracting by decide)]
  rfl

/-- The matrix product into a zero accumulator, at `(p, q)`: the row `p` of the left operand times the column `q`
of the right one, summed over the `4096` contracted positions. -/
theorem matmul_at (l : FVec Ideal S128x4096 .bf16) (r : FVec Ideal S4096x2048 .bf16) (p : Fin 128) (q : Fin 2048) :
    matmul dot_S128x4096_S4096x2048_S128x2048_1_0_0_1_n_n none l r (constant S128x2048 .f32 0x00000000#32) (ix2 p q)
      = ∑ k : Fin 4096, l (ix2 p k) * r (ix2 k q) := by
  show FloatOps.matmul dot_S128x4096_S4096x2048_S128x2048_1_0_0_1_n_n none l r (constant S128x2048 .f32 0x00000000#32) (ix2 p q) = _
  rw [Ideal.matmul_constant_zero_apply, ← Equiv.sum_comp (contrEquiv1 dot_S128x4096_S4096x2048_S128x2048_1_0_0_1_n_n 4096 rfl rfl).symm]
  refine Finset.sum_congr rfl fun k _ => ?_
  have hk := contrEquiv1_symm_val dot_S128x4096_S4096x2048_S128x2048_1_0_0_1_n_n 4096 rfl rfl k
  have el : dot_S128x4096_S4096x2048_S128x2048_1_0_0_1_n_n.lhsIdx (ix2 p q) ((contrEquiv1 dot_S128x4096_S4096x2048_S128x2048_1_0_0_1_n_n 4096 rfl rfl).symm k) = ix2 p k :=
    funext fun a => Fin.ext (by
      match a with
      | ⟨0, _⟩ => exact lhs_row _ _
      | ⟨1, _⟩ => exact (lhs_col _ _).trans hk)
  have er : dot_S128x4096_S4096x2048_S128x2048_1_0_0_1_n_n.rhsIdx (ix2 p q) ((contrEquiv1 dot_S128x4096_S4096x2048_S128x2048_1_0_0_1_n_n 4096 rfl rfl).symm k) = ix2 k q :=
    funext fun a => Fin.ext (by
      match a with
      | ⟨0, _⟩ => exact (rhs_row _ _).trans hk
      | ⟨1, _⟩ => exact rhs_col _ _)
  rw [el, er]

/-- The body's stored value at `(p, q)`, from the block `x` and the table `e` it loads: the three pieces of
row `p` of `x`, each times column `q` of `e`, added. -/
theorem pay_at (x : Vec Ideal S128x4096 .f32) (e : Vec Ideal S4096x2048 .bf16) (p : Fin 128) (q : Fin 2048) :
    k0_pay1 (F := Ideal) x e (ix2 p q)
      = (∑ k : Fin 4096, x (ix2 p k) * e (ix2 k q))
        + (∑ k : Fin 4096, (x (ix2 p k) - x (ix2 p k)) * e (ix2 k q))
        + (∑ k : Fin 4096, ((x (ix2 p k) - x (ix2 p k)) - (x (ix2 p k) - x (ix2 p k))) * e (ix2 k q)) := by
  unfold k0_pay1
  simp only [addf_apply, matmul_at, truncf_apply, subf_apply, shapeCast_self]

end Cert.KernelIdeal.Body

end
-- ==== Proof.KernelValue.lean ====
import proofs.«408778_j48670569398603_3_alg».proof.Proof.Gen.KernelIdeal.Value
import proofs.«408778_j48670569398603_3_alg».proof.Proof.KernelDot
import proofs.«408778_j48670569398603_3_alg».proof.Proof.Spec
import Idealize.ShloMosaic.Lib.StableHlo.Run
import Idealize.ShloMosaic.Lib.ValueIdx
import Idealize.ShloMosaic.Lib.Affine

/-!
# What the kernel's result array holds

Before the grid runs, the host builds the table `e[k, l] = 1` if the index `idx l`, clipped into `[0, 4095]`,
equals `k`, else `0`. Grid point `t` multiplies rows `128 t … 128 t + 127` of `x`, split into three pieces, with
the whole table and writes the sum of the three products to the same rows of the result. For real `x` and indices
in `[0, 4096)` the two residual pieces vanish and the one-hot column selects one entry, so the result array is
the gather of the named columns of `x`.
-/

noncomputable section

namespace Cert.KernelIdeal.Gathered

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

/-! ## The one-hot table the host builds -/

section Table

variable {F : FTy → Type} [FloatOps F]

/-- The index vector clipped into `[0, 4095]`. -/
def clipped (idx : IVec S2048 32) : IVec S2048 32 :=
  minsi (broadcastInDim S2048 ![] bcast_S_S2048 (id (constantI S_ 32 4095#32)))
    (maxsi (broadcastInDim S2048 ![] bcast_S_S2048 (id (constantI S_ 32 0#32))) idx)

/-- The table: the bit "the clipped index of column `l` is the row number `k`", as a float. -/
def table (idx : IVec S2048 32) : FVec F S4096x2048 .bf16 :=
  uitofp .bf16 (cmpi .eq
    (broadcastInDim S4096x2048 ![0, 1] bcast_S1x2048_S4096x2048_0_1
      (broadcastInDim S1x2048 ![1] bcast_S2048_S1x2048_1 (clipped idx)))
    (iotaInDim S4096x2048 32 0))

/-- When the grid starts, the table's buffer holds `table` of the index argument as launched. -/
theorem table_eq (m : (ℓ : Loc nD τ sig) → Buf (Elt F) ℓ) (c : Dev nD) :
    (V m c main_v5 : S4096x2048.Idx → F .bf16) = table (m ((c : Thread nD τ).loc main_arg1)) := by
  dsimp only [V]
  simp only [hostOps0, hostOps0_1, hostOps0_2, List.flatten_cons, List.flatten_nil, List.append_nil, List.cons_append,
    List.nil_append]
  after_results
  rfl

end Table

section Range

variable (idx : IVec S2048 32) (hs : ∀ l, 0 ≤ (idx l).toInt ∧ (idx l).toInt < ((4096 : ℕ) : ℤ))
include hs

/-- An index in `[0, 4096)` is its own clip. -/
theorem clipped_eq (j : S2048.Idx) : clipped idx j = idx j := by
  have z0 : (0#32 : BitVec 32).toInt = 0 := by decide
  have z1 : (4095#32 : BitVec 32).toInt = 4095 := by decide
  obtain ⟨h0, h1⟩ := hs j
  rw [Nat.cast_ofNat] at h1
  have n0 : ¬(idx j).slt (0#32) = true := fun h => by
    have := BitVec.slt_iff_toInt_lt.1 h
    omega
  have n1 : ¬(4095#32 : BitVec 32).slt (idx j) = true := fun h => by
    have := BitVec.slt_iff_toInt_lt.1 h
    omega
  show IntOp.minsi (4095#32) (IntOp.maxsi (0#32) (idx j)) = idx j
  unfold IntOp.maxsi
  rw [if_neg n0]
  unfold IntOp.minsi
  rw [if_neg n1]

/-- The table at `(k, l)`: one where `idx l` is the word of `k`, zero elsewhere. -/
theorem table_at (k : Fin 4096) (l : Fin 2048) :
    table (F := Ideal) idx (ix2 k l) = if idx (ix1 l) = BitVec.ofNat 32 k.val then (1 : EReal) else 0 := by
  have ej : table (F := Ideal) idx (ix2 k l)
      = (((IntOp.cmpi .eq (clipped idx (ix1 l)) (BitVec.ofNat 32 k.val)).toNat : ℝ) : EReal) := by
    refine congrArg (fun j => (((IntOp.cmpi .eq (clipped idx j) (BitVec.ofNat 32 k.val)).toNat : ℝ) : EReal))
      (funext fun a => Fin.ext ?_)
    match a with
    | ⟨0, _⟩ => rfl
  rw [ej, clipped_eq idx hs]
  by_cases h : idx (ix1 l) = BitVec.ofNat 32 k.val
  · rw [if_pos h, IntOp.cmpi_eq.2 h]
    simp
  · rw [if_neg h, eq_zero_of_ne_one (fun h' => h (IntOp.cmpi_eq.1 h'))]
    simp

/-- THE BODY AT ONE POSITION. If the loaded block of `x` has real rows `row p` and the loaded table is the
one-hot table of `idx`, the stored value at `(p, q)` is the entry of row `p` at the column `idx q` names. -/
theorem pay_gather (x0 : Vec Ideal S128x4096 .f32) (x1 : Vec Ideal S4096x2048 .bf16)
    (row : Fin 128 → Fin 4096 → EReal) (hrow : ∀ p k, ∃ r : ℝ, row p k = (r : EReal))
    (h0 : ∀ p k, x0 (ix2 p k) = row p k)
    (h1 : ∀ k l, x1 (ix2 k l) = if idx (ix1 l) = BitVec.ofNat 32 k.val then (1 : EReal) else 0)
    (p : Fin 128) (q : Fin 2048) :
    k0_pay1 (F := Ideal) x0 x1 (ix2 p q) = row p (Selection.colOf (idx (ix1 q))) := by
  rw [Body.pay_at]
  simp only [h0, h1]
  exact Selection.split_onehot (idx (ix1 q)) (row p) (hrow p) (hs _)
    (fun k => if idx (ix1 q) = BitVec.ofNat 32 k.val then (1 : EReal) else 0) (fun _ => rfl)

end Range

/-! ## The blocks a grid point reads, and the block it writes -/

section Blocks

variable (m : (ℓ : Loc nD τ sig) → Buf (Elt Ideal) ℓ) (ρ : Dev nD → PrngReg)

theorem hz : (![0, 0] : Fin 2 → Nat) = fun _ => 0 := funext fun a => by fin_cases a <;> rfl

/-- The block indices over the grid: point `t` reads block row `t` of `x`, the whole table, and writes block
row `t` of the result. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row of the arrays that row `p` of point `t`'s blocks is. -/
def rowOf (t : Fin cfg0.N) (p : Fin 128) : Fin 16384 :=
  ⟨t.val * 128 + p.val, by have := t.isLt; have hN : cfg0.N = 128 := N_0; omega⟩

/-- Point `t`'s block of `x` at `(p, k)` is `x` as launched at row `128 t + p`, column `k`. -/
theorem xblk_at (c : Dev nD) (t : Fin cfg0.N) (p : Fin 128) (k : Fin 4096) :
    iblk m c 0 t (ix2 p k)
      = (m ((c : Thread nD τ).loc main_arg0) : S16384x4096.Idx → EReal) (ix2 (rowOf t p) k) := by
  obtain ⟨e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 128 + 1 * p.val = t.val * 128 + p.val; rw [e0]; omega
  | ⟨1, _⟩ => show win0_0.index t (1 : Fin 2) * 4096 + 1 * k.val = k.val; rw [e1]; omega

/-- Point `t`'s block of the table is the whole table. -/
theorem tblk_at (c : Dev nD) (t : Fin cfg0.N) (k : Fin 4096) (l : Fin 2048) :
    iblk m c 1 t (ix2 k l) = table (F := Ideal) (m ((c : Thread nD τ).loc main_arg1)) (ix2 k l) := by
  obtain ⟨-, -, e2, e3, -⟩ := idx_facts t
  show V m c main_v5 (((cfg0.win 1).blk t).view.emb (ix2 k l)) = _
  rw [table_eq]
  refine congrArg _ (funext fun a => Fin.ext ?_)
  match a with
  | ⟨0, _⟩ => show win0_1.index t (0 : Fin 2) * 4096 + 1 * k.val = k.val; rw [e2]; omega
  | ⟨1, _⟩ => show win0_1.index t (1 : Fin 2) * 2048 + 1 * l.val = l.val; rw [e3]; omega

/-- An index of the result array is in point `t`'s block iff each coordinate is in the block's range. -/
theorem mem_blk (t : Fin cfg0.N) (i : S16384x2048.Idx) :
    i ∈ ((cfg0.win 2).blk t).view.set ↔ ∀ a : Fin 2, win0_2.index t a * S128x2048.size a ≤ (i a).val
      ∧ (i a).val < win0_2.index t a * S128x2048.size a + S128x2048.size a := by
  show i ∈ ((View.whole main_v6).slice (win0_2.rect t)).set ↔ _
  rw [View.set_slice_whole, Rect.mem_set_unit]
  exact Iff.rfl

/-- Every row of the result lies in the block of the point `row / 128`. -/
theorem covered (i : S16384x2048.Idx) :
    ∃ t : Fin cfg0.N, (cfg0.win 2).flush t = true ∧ i ∈ ((cfg0.win 2).blk t).view.set := by
  have hi0 : (i 0).val < 16384 := (i 0).isLt
  have hi1 : (i 1).val < 2048 := (i 1).isLt
  have hN : cfg0.N = 128 := N_0
  let t : Fin cfg0.N := ⟨(i 0).val / 128, by omega⟩
  obtain ⟨-, -, -, -, e4, e5⟩ := idx_facts t
  have ht : t.val = (i 0).val / 128 := rfl
  refine ⟨t, flush0_2 t, ?_⟩
  rw [mem_blk]
  intro a
  match a with
  | ⟨0, _⟩ =>
    show win0_2.index t (0 : Fin 2) * 128 ≤ (i 0).val ∧ (i 0).val < win0_2.index t (0 : Fin 2) * 128 + 128
    rw [e4]; omega
  | ⟨1, _⟩ =>
    show win0_2.index t (1 : Fin 2) * 2048 ≤ (i 1).val ∧ (i 1).val < win0_2.index t (1 : Fin 2) * 2048 + 2048
    rw [e5]; omega

variable (hreal : ∀ c : Dev nD, ∀ i, ∃ r : ℝ, (m ((c : Thread nD τ).loc main_arg0) : S16384x4096.Idx → EReal) i = (r : EReal))
variable (hidx : ∀ c : Dev nD, ∀ l, 0 ≤ ((m ((c : Thread nD τ).loc main_arg1) : IVec S2048 32) l).toInt
  ∧ ((m ((c : Thread nD τ).loc main_arg1) : IVec S2048 32) l).toInt < ((4096 : ℕ) : ℤ))
include hreal hidx

/-- WHAT POINT `t` WRITES BACK is block `t` of the gather of the named columns of `x`. -/
theorem flushed_eq (c : Dev nD) (t : Fin cfg0.N) :
    (dats m 0 c).flushed 2 t = ((cfg0.win 2).blk t).view.read (Elt Ideal)
      (Spec.gatherCols (m ((c : Thread nD τ).loc main_arg0)) (m ((c : Thread nD τ).loc main_arg1))) := by
  obtain ⟨-, -, -, -, e4, e5⟩ := idx_facts t
  rw [Value.flushed2]
  unfold out0_2
  rw [View.canon_unit_zero hz]
  simp only [View.ld_unit_zero (S := S128x4096) hz, View.ld_unit_zero (S := S4096x2048) hz]
  funext j
  have hj0 : (j 0).val < 128 := (j 0).isLt
  have hj1 : (j 1).val < 2048 := (j 1).isLt
  -- the position inside the block, and the array position the block puts it at
  have ey : (win0 2).xinj (grid0.coords t) j = ix2 (⟨(j 0).val, hj0⟩ : Fin 128) (⟨(j 1).val, hj1⟩ : Fin 2048) :=
    funext fun a => Fin.ext (by
      match a with
      | ⟨0, _⟩ => rfl
      | ⟨1, _⟩ => rfl)
  have hI : ((cfg0.win 2).blk t).view.emb j
      = ix2 (rowOf t ⟨(j 0).val, hj0⟩) (⟨(j 1).val, hj1⟩ : Fin 2048) :=
    funext fun a => Fin.ext (by
      match a with
      | ⟨0, _⟩ => show win0_2.index t (0 : Fin 2) * 128 + 1 * (j 0).val = t.val * 128 + (j 0).val; rw [e4]; omega
      | ⟨1, _⟩ => show win0_2.index t (1 : Fin 2) * 2048 + 1 * (j 1).val = (j 1).val; rw [e5]; omega)
  show k0_pay1 (iblk m c 0 t) (iblk m c 1 t) ((win0 2).xinj (grid0.coords t) j) = _
  rw [ey]
  refine (pay_gather (m ((c : Thread nD τ).loc main_arg1)) (hidx c) (iblk m c 0 t) (iblk m c 1 t)
    (fun p k => (m ((c : Thread nD τ).loc main_arg0) : S16384x4096.Idx → EReal) (ix2 (rowOf t p) k))
    (fun p k => hreal c _) (fun p k => xblk_at m c t p k)
    (fun k l => (tblk_at m c t k l).trans (table_at (m ((c : Thread nD τ).loc main_arg1)) (hidx c) k l))
    ⟨(j 0).val, hj0⟩ ⟨(j 1).val, hj1⟩).trans ?_
  exact (Spec.gatherCols_at _ _ (rowOf t ⟨(j 0).val, hj0⟩) ⟨(j 1).val, hj1⟩).symm.trans
    (congrArg (Spec.gatherCols (m ((c : Thread nD τ).loc main_arg0)) (m ((c : Thread nD τ).loc main_arg1))) hI.symm)

/-- THE RESULT ARRAY after the run is the gather of the named columns of `x`. -/
theorem final (c : Dev nD) : (dats m 0 c).arrAt 2 cfg0.N
    = Spec.gatherCols (m ((c : Thread nD τ).loc main_arg0)) (m ((c : Thread nD τ).loc main_arg1)) :=
  (dats m 0 c).arrAt_eq_of_cover 2 _ (fun t _ => flushed_eq m hreal hidx c t) covered

/-- The kernel's run: the result array ends at the gather, the arguments unchanged. -/
theorem run : θ_run defs (onTc (τ := τ) (main (F := Ideal))) ⟨m, fun _ => 0, ρ⟩ fun r => ∀ c : Dev nD,
      r.2.mem ((c : Thread nD τ).loc main_v6)
          = Spec.gatherCols (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m hreal hidx c), (h c).2⟩)
    (Value.run_blocks m ρ)

end Blocks

end Cert.KernelIdeal.Gathered

end
-- ==== Proof.lean ====
/-
  A column gather computed as a product with a one-hot table, against `jnp.take`.

  The kernel forms `e[k, l] = 1` if `clip(idx[l], 0, 4095) = k` else `0` on the host and, per block of 128 rows
  of `x`, stores `hi · e + lo · e + lo2 · e`, where `hi = x`, `lo = x - hi`, `lo2 = (x - hi) - lo` once the
  changes of float format are read as the identity. For real `x` the two residuals are `0`, and a sum of
  `x[b, k] · e[k, l]` over `k` against a one-hot column is the one entry `x[b, idx[l]]`. The reference moves a
  negative index up by `4096`, gathers the columns, and fills a position whose moved index is outside
  `[0, 4095]`. The two agree exactly where every index lies in `[0, 4096)`, which the precondition states (a
  negative index would be clipped to column `0` by the kernel and wrapped to the far end by the reference); the
  finiteness of `x` is what makes `x - x = 0` on the extended reals.
  Both runs are stated with the same array `Spec.gatherCols x idx`.
-/
import proofs.«408778_j48670569398603_3_alg».proof.Defs
import proofs.«408778_j48670569398603_3_alg».proof.Proof.Gen.Kernel
import proofs.«408778_j48670569398603_3_alg».proof.Proof.Gen.Kernel.Skeleton
import proofs.«408778_j48670569398603_3_alg».proof.Proof.Gen.Kernel.Launch
import proofs.«408778_j48670569398603_3_alg».proof.Proof.Gen.Kernel.Points
import proofs.«408778_j48670569398603_3_alg».proof.Proof.Gen.Kernel.Frame
import proofs.«408778_j48670569398603_3_alg».proof.Proof.Gen.KernelIdeal
import proofs.«408778_j48670569398603_3_alg».proof.Proof.Gen.KernelIdeal.Skeleton
import proofs.«408778_j48670569398603_3_alg».proof.Proof.Gen.KernelIdeal.Launch
import proofs.«408778_j48670569398603_3_alg».proof.Proof.Gen.KernelIdeal.Points
import proofs.«408778_j48670569398603_3_alg».proof.Proof.Gen.KernelIdeal.Frame
import proofs.«408778_j48670569398603_3_alg».proof.Proof.Gen.KernelIdeal.Value
import proofs.«408778_j48670569398603_3_alg».proof.Proof.Gen.ReferenceIdeal
import proofs.«408778_j48670569398603_3_alg».proof.Proof.Gen.Pre_finite_inputs
import proofs.«408778_j48670569398603_3_alg».proof.Proof.PreDecode
import proofs.«408778_j48670569398603_3_alg».proof.Proof.RefValue
import proofs.«408778_j48670569398603_3_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Taken.run (F := Ideal) m ρ)

/-- The two removed round trips through bf16 (of `x` and of `x - x`) are the identity on the extended reals. -/
theorem preserves : Cert.preserves_Kernel_KernelIdeal :=
  ⟨IdealRules.truncf_extf.statement _ .f32 .bf16, IdealRules.truncf_extf.statement _ .f32 .bf16⟩

/-- From memories that agree on `x` and `idx`, both programs end with the gather of the named columns. -/
theorem algebraic : Cert.algebraic_KernelIdeal_ReferenceIdeal := by
  intro m ρ m' ρ' hpre hagree
  have hdec := fun c => Cert.Pre_finite_inputs.Decode.decode _ _ (hpre c)
  refine ⟨fun c => Cert.Spec.gatherCols (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Gathered.run m ρ (fun c => (hdec c).1) (fun c => (hdec c).2), ?_⟩
  refine (θ_run Cert.ReferenceIdeal.defs _ _).mono (fun _ h c => ⟨(h c).1.trans ?_, (h c).2⟩)
    (Cert.ReferenceIdeal.Taken.run (F := Ideal) m' ρ')
  rw [(hagree c).1, (hagree c).2]
  exact Cert.ReferenceIdeal.Taken.taken_eq _ (hdec c).2 _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
